-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64x64 .f32) (main_arg7 : FVec F S64x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 73
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S1x64, .f32⟩
  | .hbm, ⟨72, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_cst_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/- One SAGE step on real-valued arrays, entry by entry.

   A node array has one row of 64 features per node.  The combine step sends the rows `x` (the node's own
   features) and `y` (the mean over its in-neighbours) to `x·w + y·v + b`; the last step sends `x` to `x·w + b`.
   Entry `(p, q)` of a product is the sum over the 64 inner positions `k` of `x (p, k) * w (k, q)`.  The bias is
   kept as a one-row array, read at `(0, q)`.  The row count `n` is a parameter: the same formula describes one
   block of rows and the whole array. -/
import Idealize.ShloMosaic.PureOps.Ideal
import Idealize.ShloMosaic.Lib.ValueIdx

noncomputable section

open scoped BigOperators

namespace Cert.Sage

open Idealize.ShloMosaic Idealize.ShloMosaic.ValueIdx

/-- Entry `(p, q)` of `x·w + y·v + b`. -/
def combineAt {n : Nat} (x y : (⟨2, ![n, 64]⟩ : Shape).Idx → EReal) (w v : (⟨2, ![64, 64]⟩ : Shape).Idx → EReal)
    (b : (⟨2, ![1, 64]⟩ : Shape).Idx → EReal) (p : Fin n) (q : Fin 64) : EReal :=
  (∑ k : Fin 64, x (ix2 p k) * w (ix2 k q)) + (∑ k : Fin 64, y (ix2 p k) * v (ix2 k q)) + b (ix2 (0 : Fin 1) q)

/-- The array `x·w + y·v + b`. -/
def combine {n : Nat} (x y : (⟨2, ![n, 64]⟩ : Shape).Idx → EReal) (w v : (⟨2, ![64, 64]⟩ : Shape).Idx → EReal)
    (b : (⟨2, ![1, 64]⟩ : Shape).Idx → EReal) : (⟨2, ![n, 64]⟩ : Shape).Idx → EReal :=
  fun i => combineAt x y w v b (i 0) (i 1)

theorem combine_ix2 {n : Nat} (x y : (⟨2, ![n, 64]⟩ : Shape).Idx → EReal) (w v : (⟨2, ![64, 64]⟩ : Shape).Idx → EReal)
    (b : (⟨2, ![1, 64]⟩ : Shape).Idx → EReal) (p : Fin n) (q : Fin 64) :
    combine x y w v b (ix2 p q) = combineAt x y w v b p q := rfl

/-- Entry `(p, q)` of `x·w + b`. -/
def linearAt {n : Nat} (x : (⟨2, ![n, 64]⟩ : Shape).Idx → EReal) (w : (⟨2, ![64, 64]⟩ : Shape).Idx → EReal)
    (b : (⟨2, ![1, 64]⟩ : Shape).Idx → EReal) (p : Fin n) (q : Fin 64) : EReal :=
  (∑ k : Fin 64, x (ix2 p k) * w (ix2 k q)) + b (ix2 (0 : Fin 1) q)

/-- The array `x·w + b`. -/
def linear {n : Nat} (x : (⟨2, ![n, 64]⟩ : Shape).Idx → EReal) (w : (⟨2, ![64, 64]⟩ : Shape).Idx → EReal)
    (b : (⟨2, ![1, 64]⟩ : Shape).Idx → EReal) : (⟨2, ![n, 64]⟩ : Shape).Idx → EReal :=
  fun i => linearAt x w b (i 0) (i 1)

theorem linear_ix2 {n : Nat} (x : (⟨2, ![n, 64]⟩ : Shape).Idx → EReal) (w : (⟨2, ![64, 64]⟩ : Shape).Idx → EReal)
    (b : (⟨2, ![1, 64]⟩ : Shape).Idx → EReal) (p : Fin n) (q : Fin 64) :
    linear x w b (ix2 p q) = linearAt x w b p q := rfl

end Cert.Sage

end
-- ==== Proof.Payload.lean ====
/- What one run of each kernel body stores, as a formula of the blocks it loads.

   The combine body loads a block of node rows `x`, the matching block of neighbour means `y`, two 64×64 weight
   matrices and a one-row bias, and stores `x·w + y·v + b`; the last body stores `x·w + b`.  Read as extended reals the
   narrowing of the operands to bf16 is the identity and a matrix product into a zero accumulator is the plain sum
   over the inner axis. -/
import proofs.«179294_j55009941128032_1_alg».proof.Proof.Gen.KernelIdeal.Skeleton
import proofs.«179294_j55009941128032_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Sage.Payload

open Idealize.ShloMosaic Idealize.ShloMosaic.ValueIdx Cert.KernelIdeal Cert.KernelIdeal.Gen Cert.Sage

/-! ## One matrix product into a zero accumulator, read at an entry -/

/-- The left operand is read in the output's row … -/
theorem lhs_axis0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … at the inner position; … -/
theorem lhs_axis1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- … the right operand at the inner position … -/
theorem rhs_axis0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- … in the output's column. -/
theorem rhs_axis1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry `(p, q)` of a 5000×64 by 64×64 product into a zero accumulator is the sum over the 64 inner positions. -/
theorem matmul_at (lhs : FVec Ideal S5000x64 .bf16) (rhs : FVec Ideal S64x64 .bf16) (p : Fin 5000) (q : Fin 64) :
    matmul (F := Ideal) dot_S5000x64_S64x64_S5000x64_1_0_0_1_n_n none lhs rhs (constant (F := Ideal) S5000x64 .f32 0x00000000#32) (ix2 p q)
      = ∑ k : Fin 64, lhs (ix2 p k) * rhs (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The three stored values -/

/-- The first combine body stores `x·w + y·v + b` of its loaded blocks. -/
theorem pay0 (v0 v2 : Vec Ideal S5000x64 .f32) (v5 v7 : Vec Ideal S64x64 .f32) (v12 : Vec Ideal S1x64 .f32) :
    k0_pay1 (F := Ideal) v0 v2 v5 v7 v12 = combine (n := 5000) v0 v2 v5 v7 v12 := by
  funext j
  obtain ⟨p, q, rfl⟩ : ∃ (p : Fin 5000) (q : Fin 64), j = ix2 p q := ⟨j 0, j 1, eq_ix2 j⟩
  rw [combine_ix2]
  unfold combineAt k0_pay1
  rw [addf_apply, addf_apply, matmul_at, matmul_at, shapeCast_self, shapeCast_self, broadcastTo_1b_ab_apply]
  rfl

/-- The second combine body stores the same formula of its loaded blocks. -/
theorem pay1 (v0 v3 : Vec Ideal S5000x64 .f32) (v6 v8 : Vec Ideal S64x64 .f32) (v13 : Vec Ideal S1x64 .f32) :
    k1_pay1 (F := Ideal) v0 v3 v6 v8 v13 = combine (n := 5000) v0 v3 v6 v8 v13 := by
  funext j
  obtain ⟨p, q, rfl⟩ : ∃ (p : Fin 5000) (q : Fin 64), j = ix2 p q := ⟨j 0, j 1, eq_ix2 j⟩
  rw [combine_ix2]
  unfold combineAt k1_pay1
  rw [addf_apply, addf_apply, matmul_at, matmul_at, shapeCast_self, shapeCast_self, shapeCast_self,
    broadcastTo_1b_ab_apply]
  rfl

/-- The last body stores `x·w + b` of its loaded blocks. -/
theorem pay2 (v0 : Vec Ideal S5000x64 .f32) (v3 : Vec Ideal S64x64 .f32) (v6 : Vec Ideal S1x64 .f32) :
    k2_pay1 (F := Ideal) v0 v3 v6 = linear (n := 5000) v0 v3 v6 := by
  funext j
  obtain ⟨p, q, rfl⟩ : ∃ (p : Fin 5000) (q : Fin 64), j = ix2 p q := ⟨j 0, j 1, eq_ix2 j⟩
  rw [linear_ix2]
  unfold linearAt k2_pay1
  rw [addf_apply, matmul_at, shapeCast_self, shapeCast_self, broadcastTo_1b_ab_apply]
  rfl

end Cert.Sage.Payload

end
-- ==== Proof.Blocks.lean ====
/- From blocks to arrays: what each region leaves in its output array.

   Every region walks 20 grid points; point `t` reads rows `5000·t … 5000·t + 4999` of its node arrays, the whole of
   each weight matrix and bias row, and writes the same rows of its output.  The 20 row blocks tile the 100000
   rows, and the formula of Spec.lean reads each input only in the output entry's own row, so the output array is
   that formula of the whole input arrays as the region finds them. -/
import proofs.«179294_j55009941128032_1_alg».proof.Proof.KernelIdealFrame
import proofs.«179294_j55009941128032_1_alg».proof.Proof.Payload
import Idealize.ShloMosaic.Lib.Pipeline.Value

set_option maxRecDepth 16384

noncomputable section

open scoped BigOperators

namespace Cert.Sage.Blocks

open Idealize.ShloMosaic Idealize.ShloMosaic.TcCoe Idealize.ShloMosaic.ValueIdx Idealize.SL.Sem
open Cert.KernelIdeal Cert.KernelIdeal.Gen Cert.KernelIdeal.GenP Cert.Sage

variable (V : (c : Dev nD) → (b : Ref sig .tc) → Buf (Elt Ideal) ((c : Thread nD τ).loc b))

/-- The zero offsets of a whole-buffer access, as a function. -/
theorem hz : (![0, 0] : Fin 2 → Nat) = fun _ => 0 := funext fun a => by fin_cases a <;> rfl

/-- The same formula on a block of rows and on the whole array: an entry of `x·w + y·v + b` reads `x` and `y` only
    in its own row, `w` and `v` only in its own column, `b` only in its own column.  So if the block's row `j 0` is the
    array's row `i 0`, and the columns `j 1` and `i 1` hold the same weights and bias, the two entries are equal. -/
theorem combine_of_rows (X Y : S100000x64.Idx → EReal) (W W' : S64x64.Idx → EReal) (B : S1x64.Idx → EReal)
    (x y : S5000x64.Idx → EReal) (w w' : S64x64.Idx → EReal) (b : S1x64.Idx → EReal)
    (p : Fin 5000) (q : Fin 64) (r : Fin 100000) (s : Fin 64)
    (hx : ∀ k : Fin 64, x (ix2 p k) = X (ix2 r k))
    (hy : ∀ k : Fin 64, y (ix2 p k) = Y (ix2 r k))
    (hw : ∀ k : Fin 64, w (ix2 k q) = W (ix2 k s))
    (hw' : ∀ k : Fin 64, w' (ix2 k q) = W' (ix2 k s))
    (hb : b (ix2 (0 : Fin 1) q) = B (ix2 (0 : Fin 1) s)) :
    combine (n := 5000) x y w w' b (ix2 p q) = combine (n := 100000) X Y W W' B (ix2 r s) := by
  rw [combine_ix2, combine_ix2]
  unfold combineAt
  simp only [hx, hy, hw, hw', hb]

/-- The same for `x·w + b`: an entry reads `x` only in its own row, `w` and `b` only in its own column. -/
theorem linear_of_rows (X : S100000x64.Idx → EReal) (W : S64x64.Idx → EReal) (B : S1x64.Idx → EReal)
    (x : S5000x64.Idx → EReal) (w : S64x64.Idx → EReal) (b : S1x64.Idx → EReal)
    (p : Fin 5000) (q : Fin 64) (r : Fin 100000) (s : Fin 64)
    (hx : ∀ k : Fin 64, x (ix2 p k) = X (ix2 r k))
    (hw : ∀ k : Fin 64, w (ix2 k q) = W (ix2 k s))
    (hb : b (ix2 (0 : Fin 1) q) = B (ix2 (0 : Fin 1) s)) :
    linear (n := 5000) x w b (ix2 p q) = linear (n := 100000) X W B (ix2 r s) := by
  rw [linear_ix2, linear_ix2]
  unfold linearAt
  simp only [hx, hw, hb]

/-! ## Region 0 -/

/-- The index maps of region 0, decided over its 20 points: the two node windows move with the output window along
    the rows and stay at column block 0; the weight and bias windows stay at block (0, 0); the output's row block at
    point `t` is `t`. -/
theorem idx0 : ∀ t : Fin cfg0.N,
    win0_0.index t (0 : Fin 2) = win0_5.index t (0 : Fin 2) ∧ win0_0.index t (1 : Fin 2) = 0
  ∧ win0_1.index t (0 : Fin 2) = win0_5.index t (0 : Fin 2) ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- Entry `x` of the first node window's block at point `t` is the array's entry in the output block's row range. -/
theorem read0_0 (c : Dev nD) (t : Fin cfg0.N) (x : S5000x64.Idx) (i : S100000x64.Idx)
    (h0 : (i 0).val = win0_5.index t (0 : Fin 2) * 5000 + 1 * (x 0).val) (h1 : (i 1).val = (x 1).val) :
    (iblk0 V c 0 t : Vec Ideal S5000x64 .f32) x = (V c main_arg0 : S100000x64.Idx → EReal) i := by
  obtain ⟨e0, e1, -⟩ := idx0 t
  show V c main_arg0 (((cfg0.win 0).blk t).view.emb x) = V c main_arg0 i
  refine congrArg _ ?_
  funext a; apply Fin.ext
  match a with
  | ⟨0, _⟩ => show win0_0.index t (0 : Fin 2) * 5000 + 1 * (x 0).val = (i 0).val; omega
  | ⟨1, _⟩ => show win0_0.index t (1 : Fin 2) * 64 + 1 * (x 1).val = (i 1).val; omega

/-- The same for the second node window. -/
theorem read0_1 (c : Dev nD) (t : Fin cfg0.N) (x : S5000x64.Idx) (i : S100000x64.Idx)
    (h0 : (i 0).val = win0_5.index t (0 : Fin 2) * 5000 + 1 * (x 0).val) (h1 : (i 1).val = (x 1).val) :
    (iblk0 V c 1 t : Vec Ideal S5000x64 .f32) x = (V c main_v20 : S100000x64.Idx → EReal) i := by
  obtain ⟨-, -, e2, e3, -⟩ := idx0 t
  show V c main_v20 (((cfg0.win 1).blk t).view.emb x) = V c main_v20 i
  refine congrArg _ ?_
  funext a; apply Fin.ext
  match a with
  | ⟨0, _⟩ => show win0_1.index t (0 : Fin 2) * 5000 + 1 * (x 0).val = (i 0).val; omega
  | ⟨1, _⟩ => show win0_1.index t (1 : Fin 2) * 64 + 1 * (x 1).val = (i 1).val; omega

/-- The first weight window's block is the whole matrix at every point. -/
theorem read0_2 (c : Dev nD) (t : Fin cfg0.N) (x : S64x64.Idx) (i : S64x64.Idx)
    (h0 : (i 0).val = (x 0).val) (h1 : (i 1).val = (x 1).val) :
    (iblk0 V c 2 t : Vec Ideal S64x64 .f32) x = (V c main_arg3 : S64x64.Idx → EReal) i := by
  obtain ⟨-, -, -, -, e4, e5, -⟩ := idx0 t
  show V c main_arg3 (((cfg0.win 2).blk t).view.emb x) = V c main_arg3 i
  refine congrArg _ ?_
  funext a; apply Fin.ext
  match a with
  | ⟨0, _⟩ => show win0_2.index t (0 : Fin 2) * 64 + 1 * (x 0).val = (i 0).val; omega
  | ⟨1, _⟩ => show win0_2.index t (1 : Fin 2) * 64 + 1 * (x 1).val = (i 1).val; omega

/-- The second weight window's block is the whole matrix at every point. -/
theorem read0_3 (c : Dev nD) (t : Fin cfg0.N) (x : S64x64.Idx) (i : S64x64.Idx)
    (h0 : (i 0).val = (x 0).val) (h1 : (i 1).val = (x 1).val) :
    (iblk0 V c 3 t : Vec Ideal S64x64 .f32) x = (V c main_arg4 : S64x64.Idx → EReal) i := by
  obtain ⟨-, -, -, -, -, -, e6, e7, -⟩ := idx0 t
  show V c main_arg4 (((cfg0.win 3).blk t).view.emb x) = V c main_arg4 i
  refine congrArg _ ?_
  funext a; apply Fin.ext
  match a with
  | ⟨0, _⟩ => show win0_3.index t (0 : Fin 2) * 64 + 1 * (x 0).val = (i 0).val; omega
  | ⟨1, _⟩ => show win0_3.index t (1 : Fin 2) * 64 + 1 * (x 1).val = (i 1).val; omega

/-- The bias window's block is the whole row at every point. -/
theorem read0_4 (c : Dev nD) (t : Fin cfg0.N) (x : S1x64.Idx) (i : S1x64.Idx)
    (h0 : (i 0).val = (x 0).val) (h1 : (i 1).val = (x 1).val) :
    (iblk0 V c 4 t : Vec Ideal S1x64 .f32) x = (V c main_v21 : S1x64.Idx → EReal) i := by
  obtain ⟨-, -, -, -, -, -, -, -, e8, e9, -⟩ := idx0 t
  show V c main_v21 (((cfg0.win 4).blk t).view.emb x) = V c main_v21 i
  refine congrArg _ ?_
  funext a; apply Fin.ext
  match a with
  | ⟨0, _⟩ => show win0_4.index t (0 : Fin 2) * 1 + 1 * (x 0).val = (i 0).val; omega
  | ⟨1, _⟩ => show win0_4.index t (1 : Fin 2) * 64 + 1 * (x 1).val = (i 1).val; omega

/-- What point `t` writes back is block `t` of the formula of the whole arrays. -/
theorem flushed0_eq (c : Dev nD) (t : Fin cfg0.N) :
    (dat0 V c).flushed 5 t = ((cfg0.win 5).blk t).view.read (Elt Ideal)
      (combine (n := 100000) (V c main_arg0) (V c main_v20) (V c main_arg3) (V c main_arg4) (V c main_v21)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  rw [Payload.pay0]
  funext j
  obtain ⟨p, q, rfl⟩ : ∃ (p : Fin 5000) (q : Fin 64), j = ix2 p q := ⟨j 0, j 1, eq_ix2 j⟩
  obtain ⟨-, -, -, -, -, -, -, -, -, -, -, e11⟩ := idx0 t
  have hr : win0_5.index t (0 : Fin 2) * 5000 + 1 * p.val < 100000 := (((cfg0.win 5).blk t).view.emb (ix2 p q) 0).isLt
  have hs : win0_5.index t (1 : Fin 2) * 64 + 1 * q.val < 64 := (((cfg0.win 5).blk t).view.emb (ix2 p q) 1).isLt
  have he : ((cfg0.win 5).blk t).view.emb (ix2 p q)
      = (ix2 (⟨win0_5.index t (0 : Fin 2) * 5000 + 1 * p.val, hr⟩ : Fin 100000) (⟨win0_5.index t (1 : Fin 2) * 64 + 1 * q.val, hs⟩ : Fin 64) : S100000x64.Idx) := by
    funext a; apply Fin.ext
    match a with
    | ⟨0, _⟩ => rfl
    | ⟨1, _⟩ => rfl
  show combine (n := 5000) (iblk0 V c 0 t) (iblk0 V c 1 t) (iblk0 V c 2 t) (iblk0 V c 3 t) (iblk0 V c 4 t) (ix2 p q)
    = combine (n := 100000) (V c main_arg0) (V c main_v20) (V c main_arg3) (V c main_arg4) (V c main_v21) (((cfg0.win 5).blk t).view.emb (ix2 p q))
  rw [he]
  exact combine_of_rows (V c main_arg0) (V c main_v20) (V c main_arg3) (V c main_arg4) (V c main_v21)
    (iblk0 V c 0 t) (iblk0 V c 1 t) (iblk0 V c 2 t) (iblk0 V c 3 t) (iblk0 V c 4 t) p q _ _
    (fun k => read0_0 V c t (ix2 p k) (ix2 _ k) rfl rfl)
    (fun k => read0_1 V c t (ix2 p k) (ix2 _ k) rfl rfl)
    (fun k => read0_2 V c t (ix2 k q) (ix2 k _) rfl (by show win0_5.index t (1 : Fin 2) * 64 + 1 * q.val = q.val; omega))
    (fun k => read0_3 V c t (ix2 k q) (ix2 k _) rfl (by show win0_5.index t (1 : Fin 2) * 64 + 1 * q.val = q.val; omega))
    (read0_4 V c t (ix2 0 q) (ix2 0 _) rfl (by show win0_5.index t (1 : Fin 2) * 64 + 1 * q.val = q.val; omega))

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v22).slice (win0_5.rect t)).set ↔ _
  rw [View.set_slice_whole, Rect.mem_set_unit]
  exact Iff.rfl

/-- The 20 row blocks tile the array: row `r` lies in the block of point `r / 5000`, and every point writes back. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hlt : (i 0).val / 5000 < cfg0.N := by
    show (i 0).val / 5000 < 20
    omega
  obtain ⟨-, -, -, -, -, -, -, -, -, -, e10, e11⟩ := idx0 ⟨(i 0).val / 5000, hlt⟩
  have e10' : win0_5.index ⟨(i 0).val / 5000, hlt⟩ (0 : Fin 2) = (i 0).val / 5000 := e10
  refine ⟨⟨(i 0).val / 5000, hlt⟩, flush0_5 _, ?_⟩
  rw [mem_blk0]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    omega

/-- Region 0 leaves `x·w + y·v + b` of the arrays it finds. -/
theorem final0 (c : Dev nD) :
    (dat0 V c).arrAt 5 cfg0.N = combine (n := 100000) (V c main_arg0) (V c main_v20) (V c main_arg3) (V c main_arg4) (V c main_v21) :=
  (dat0 V c).arrAt_eq_of_cover 5 (combine (n := 100000) (V c main_arg0) (V c main_v20) (V c main_arg3) (V c main_arg4) (V c main_v21))
    (fun t _ => flushed0_eq V c t) cover0

/-! ## Region 1 -/

/-- The index maps of region 1, decided over its 20 points: the two node windows move with the output window along
    the rows and stay at column block 0; the weight and bias windows stay at block (0, 0); the output's row block at
    point `t` is `t`. -/
theorem idx1 : ∀ t : Fin cfg1.N,
    win1_0.index t (0 : Fin 2) = win1_5.index t (0 : Fin 2) ∧ win1_0.index t (1 : Fin 2) = 0
  ∧ win1_1.index t (0 : Fin 2) = win1_5.index t (0 : Fin 2) ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

/-- Entry `x` of the first node window's block at point `t` is the array's entry in the output block's row range. -/
theorem read1_0 (c : Dev nD) (t : Fin cfg1.N) (x : S5000x64.Idx) (i : S100000x64.Idx)
    (h0 : (i 0).val = win1_5.index t (0 : Fin 2) * 5000 + 1 * (x 0).val) (h1 : (i 1).val = (x 1).val) :
    (iblk1 V c 0 t : Vec Ideal S5000x64 .f32) x = (V c main_v22 : S100000x64.Idx → EReal) i := by
  obtain ⟨e0, e1, -⟩ := idx1 t
  show V c main_v22 (((cfg1.win 0).blk t).view.emb x) = V c main_v22 i
  refine congrArg _ ?_
  funext a; apply Fin.ext
  match a with
  | ⟨0, _⟩ => show win1_0.index t (0 : Fin 2) * 5000 + 1 * (x 0).val = (i 0).val; omega
  | ⟨1, _⟩ => show win1_0.index t (1 : Fin 2) * 64 + 1 * (x 1).val = (i 1).val; omega

/-- The same for the second node window. -/
theorem read1_1 (c : Dev nD) (t : Fin cfg1.N) (x : S5000x64.Idx) (i : S100000x64.Idx)
    (h0 : (i 0).val = win1_5.index t (0 : Fin 2) * 5000 + 1 * (x 0).val) (h1 : (i 1).val = (x 1).val) :
    (iblk1 V c 1 t : Vec Ideal S5000x64 .f32) x = (V c main_v43 : S100000x64.Idx → EReal) i := by
  obtain ⟨-, -, e2, e3, -⟩ := idx1 t
  show V c main_v43 (((cfg1.win 1).blk t).view.emb x) = V c main_v43 i
  refine congrArg _ ?_
  funext a; apply Fin.ext
  match a with
  | ⟨0, _⟩ => show win1_1.index t (0 : Fin 2) * 5000 + 1 * (x 0).val = (i 0).val; omega
  | ⟨1, _⟩ => show win1_1.index t (1 : Fin 2) * 64 + 1 * (x 1).val = (i 1).val; omega

/-- The first weight window's block is the whole matrix at every point. -/
theorem read1_2 (c : Dev nD) (t : Fin cfg1.N) (x : S64x64.Idx) (i : S64x64.Idx)
    (h0 : (i 0).val = (x 0).val) (h1 : (i 1).val = (x 1).val) :
    (iblk1 V c 2 t : Vec Ideal S64x64 .f32) x = (V c main_arg6 : S64x64.Idx → EReal) i := by
  obtain ⟨-, -, -, -, e4, e5, -⟩ := idx1 t
  show V c main_arg6 (((cfg1.win 2).blk t).view.emb x) = V c main_arg6 i
  refine congrArg _ ?_
  funext a; apply Fin.ext
  match a with
  | ⟨0, _⟩ => show win1_2.index t (0 : Fin 2) * 64 + 1 * (x 0).val = (i 0).val; omega
  | ⟨1, _⟩ => show win1_2.index t (1 : Fin 2) * 64 + 1 * (x 1).val = (i 1).val; omega

/-- The second weight window's block is the whole matrix at every point. -/
theorem read1_3 (c : Dev nD) (t : Fin cfg1.N) (x : S64x64.Idx) (i : S64x64.Idx)
    (h0 : (i 0).val = (x 0).val) (h1 : (i 1).val = (x 1).val) :
    (iblk1 V c 3 t : Vec Ideal S64x64 .f32) x = (V c main_arg7 : S64x64.Idx → EReal) i := by
  obtain ⟨-, -, -, -, -, -, e6, e7, -⟩ := idx1 t
  show V c main_arg7 (((cfg1.win 3).blk t).view.emb x) = V c main_arg7 i
  refine congrArg _ ?_
  funext a; apply Fin.ext
  match a with
  | ⟨0, _⟩ => show win1_3.index t (0 : Fin 2) * 64 + 1 * (x 0).val = (i 0).val; omega
  | ⟨1, _⟩ => show win1_3.index t (1 : Fin 2) * 64 + 1 * (x 1).val = (i 1).val; omega

/-- The bias window's block is the whole row at every point. -/
theorem read1_4 (c : Dev nD) (t : Fin cfg1.N) (x : S1x64.Idx) (i : S1x64.Idx)
    (h0 : (i 0).val = (x 0).val) (h1 : (i 1).val = (x 1).val) :
    (iblk1 V c 4 t : Vec Ideal S1x64 .f32) x = (V c main_v44 : S1x64.Idx → EReal) i := by
  obtain ⟨-, -, -, -, -, -, -, -, e8, e9, -⟩ := idx1 t
  show V c main_v44 (((cfg1.win 4).blk t).view.emb x) = V c main_v44 i
  refine congrArg _ ?_
  funext a; apply Fin.ext
  match a with
  | ⟨0, _⟩ => show win1_4.index t (0 : Fin 2) * 1 + 1 * (x 0).val = (i 0).val; omega
  | ⟨1, _⟩ => show win1_4.index t (1 : Fin 2) * 64 + 1 * (x 1).val = (i 1).val; omega

/-- What point `t` writes back is block `t` of the formula of the whole arrays. -/
theorem flushed1_eq (c : Dev nD) (t : Fin cfg1.N) :
    (dat1 V c).flushed 5 t = ((cfg1.win 5).blk t).view.read (Elt Ideal)
      (combine (n := 100000) (V c main_v22) (V c main_v43) (V c main_arg6) (V c main_arg7) (V c main_v44)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  rw [Payload.pay1]
  funext j
  obtain ⟨p, q, rfl⟩ : ∃ (p : Fin 5000) (q : Fin 64), j = ix2 p q := ⟨j 0, j 1, eq_ix2 j⟩
  obtain ⟨-, -, -, -, -, -, -, -, -, -, -, e11⟩ := idx1 t
  have hr : win1_5.index t (0 : Fin 2) * 5000 + 1 * p.val < 100000 := (((cfg1.win 5).blk t).view.emb (ix2 p q) 0).isLt
  have hs : win1_5.index t (1 : Fin 2) * 64 + 1 * q.val < 64 := (((cfg1.win 5).blk t).view.emb (ix2 p q) 1).isLt
  have he : ((cfg1.win 5).blk t).view.emb (ix2 p q)
      = (ix2 (⟨win1_5.index t (0 : Fin 2) * 5000 + 1 * p.val, hr⟩ : Fin 100000) (⟨win1_5.index t (1 : Fin 2) * 64 + 1 * q.val, hs⟩ : Fin 64) : S100000x64.Idx) := by
    funext a; apply Fin.ext
    match a with
    | ⟨0, _⟩ => rfl
    | ⟨1, _⟩ => rfl
  show combine (n := 5000) (iblk1 V c 0 t) (iblk1 V c 1 t) (iblk1 V c 2 t) (iblk1 V c 3 t) (iblk1 V c 4 t) (ix2 p q)
    = combine (n := 100000) (V c main_v22) (V c main_v43) (V c main_arg6) (V c main_arg7) (V c main_v44) (((cfg1.win 5).blk t).view.emb (ix2 p q))
  rw [he]
  exact combine_of_rows (V c main_v22) (V c main_v43) (V c main_arg6) (V c main_arg7) (V c main_v44)
    (iblk1 V c 0 t) (iblk1 V c 1 t) (iblk1 V c 2 t) (iblk1 V c 3 t) (iblk1 V c 4 t) p q _ _
    (fun k => read1_0 V c t (ix2 p k) (ix2 _ k) rfl rfl)
    (fun k => read1_1 V c t (ix2 p k) (ix2 _ k) rfl rfl)
    (fun k => read1_2 V c t (ix2 k q) (ix2 k _) rfl (by show win1_5.index t (1 : Fin 2) * 64 + 1 * q.val = q.val; omega))
    (fun k => read1_3 V c t (ix2 k q) (ix2 k _) rfl (by show win1_5.index t (1 : Fin 2) * 64 + 1 * q.val = q.val; omega))
    (read1_4 V c t (ix2 0 q) (ix2 0 _) rfl (by show win1_5.index t (1 : Fin 2) * 64 + 1 * q.val = q.val; omega))

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- The 20 row blocks tile the array: row `r` lies in the block of point `r / 5000`, and every point writes back. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hlt : (i 0).val / 5000 < cfg1.N := by
    show (i 0).val / 5000 < 20
    omega
  obtain ⟨-, -, -, -, -, -, -, -, -, -, e10, e11⟩ := idx1 ⟨(i 0).val / 5000, hlt⟩
  have e10' : win1_5.index ⟨(i 0).val / 5000, hlt⟩ (0 : Fin 2) = (i 0).val / 5000 := e10
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    omega

/-- Region 1 leaves the same formula of the arrays it finds. -/
theorem final1 (c : Dev nD) :
    (dat1 V c).arrAt 5 cfg1.N = combine (n := 100000) (V c main_v22) (V c main_v43) (V c main_arg6) (V c main_arg7) (V c main_v44) :=
  (dat1 V c).arrAt_eq_of_cover 5 (combine (n := 100000) (V c main_v22) (V c main_v43) (V c main_arg6) (V c main_arg7) (V c main_v44))
    (fun t _ => flushed1_eq V c t) cover1

/-! ## Region 2 -/

/-- The index maps of region 2, decided over its 20 points: the node window moves with the output window along the
    rows and stays at column block 0; the weight and bias windows stay at block (0, 0); the output's row block at
    point `t` is `t`. -/
theorem idx2 : ∀ t : Fin cfg2.N,
    win2_0.index t (0 : Fin 2) = win2_3.index t (0 : Fin 2) ∧ win2_0.index t (1 : Fin 2) = 0
  ∧ win2_1.index t (0 : Fin 2) = 0 ∧ win2_1.index t (1 : Fin 2) = 0
  ∧ win2_2.index t (0 : Fin 2) = 0 ∧ win2_2.index t (1 : Fin 2) = 0
  ∧ win2_3.index t (0 : Fin 2) = t.val ∧ win2_3.index t (1 : Fin 2) = 0 :=
  (by decide +kernel : ∀ t : Fin grid2.N, _)

/-- Entry `x` of the node window's block at point `t` is the array's entry in the output block's row range. -/
theorem read2_0 (c : Dev nD) (t : Fin cfg2.N) (x : S5000x64.Idx) (i : S100000x64.Idx)
    (h0 : (i 0).val = win2_3.index t (0 : Fin 2) * 5000 + 1 * (x 0).val) (h1 : (i 1).val = (x 1).val) :
    (iblk2 V c 0 t : Vec Ideal S5000x64 .f32) x = (V c main_v45 : S100000x64.Idx → EReal) i := by
  obtain ⟨e0, e1, -⟩ := idx2 t
  show V c main_v45 (((cfg2.win 0).blk t).view.emb x) = V c main_v45 i
  refine congrArg _ ?_
  funext a; apply Fin.ext
  match a with
  | ⟨0, _⟩ => show win2_0.index t (0 : Fin 2) * 5000 + 1 * (x 0).val = (i 0).val; omega
  | ⟨1, _⟩ => show win2_0.index t (1 : Fin 2) * 64 + 1 * (x 1).val = (i 1).val; omega

/-- The weight window's block is the whole matrix at every point. -/
theorem read2_1 (c : Dev nD) (t : Fin cfg2.N) (x : S64x64.Idx) (i : S64x64.Idx)
    (h0 : (i 0).val = (x 0).val) (h1 : (i 1).val = (x 1).val) :
    (iblk2 V c 1 t : Vec Ideal S64x64 .f32) x = (V c main_arg9 : S64x64.Idx → EReal) i := by
  obtain ⟨-, -, e2, e3, -⟩ := idx2 t
  show V c main_arg9 (((cfg2.win 1).blk t).view.emb x) = V c main_arg9 i
  refine congrArg _ ?_
  funext a; apply Fin.ext
  match a with
  | ⟨0, _⟩ => show win2_1.index t (0 : Fin 2) * 64 + 1 * (x 0).val = (i 0).val; omega
  | ⟨1, _⟩ => show win2_1.index t (1 : Fin 2) * 64 + 1 * (x 1).val = (i 1).val; omega

/-- The bias window's block is the whole row at every point. -/
theorem read2_2 (c : Dev nD) (t : Fin cfg2.N) (x : S1x64.Idx) (i : S1x64.Idx)
    (h0 : (i 0).val = (x 0).val) (h1 : (i 1).val = (x 1).val) :
    (iblk2 V c 2 t : Vec Ideal S1x64 .f32) x = (V c main_v46 : S1x64.Idx → EReal) i := by
  obtain ⟨-, -, -, -, e4, e5, -⟩ := idx2 t
  show V c main_v46 (((cfg2.win 2).blk t).view.emb x) = V c main_v46 i
  refine congrArg _ ?_
  funext a; apply Fin.ext
  match a with
  | ⟨0, _⟩ => show win2_2.index t (0 : Fin 2) * 1 + 1 * (x 0).val = (i 0).val; omega
  | ⟨1, _⟩ => show win2_2.index t (1 : Fin 2) * 64 + 1 * (x 1).val = (i 1).val; omega

/-- What point `t` writes back is block `t` of the formula of the whole arrays. -/
theorem flushed2_eq (c : Dev nD) (t : Fin cfg2.N) :
    (dat2 V c).flushed 3 t = ((cfg2.win 3).blk t).view.read (Elt Ideal)
      (linear (n := 100000) (V c main_v45) (V c main_arg9) (V c main_v46)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S1x64) hz]
  rw [Payload.pay2]
  funext j
  obtain ⟨p, q, rfl⟩ : ∃ (p : Fin 5000) (q : Fin 64), j = ix2 p q := ⟨j 0, j 1, eq_ix2 j⟩
  obtain ⟨-, -, -, -, -, -, -, e7⟩ := idx2 t
  have hr : win2_3.index t (0 : Fin 2) * 5000 + 1 * p.val < 100000 := (((cfg2.win 3).blk t).view.emb (ix2 p q) 0).isLt
  have hs : win2_3.index t (1 : Fin 2) * 64 + 1 * q.val < 64 := (((cfg2.win 3).blk t).view.emb (ix2 p q) 1).isLt
  have he : ((cfg2.win 3).blk t).view.emb (ix2 p q)
      = (ix2 (⟨win2_3.index t (0 : Fin 2) * 5000 + 1 * p.val, hr⟩ : Fin 100000) (⟨win2_3.index t (1 : Fin 2) * 64 + 1 * q.val, hs⟩ : Fin 64) : S100000x64.Idx) := by
    funext a; apply Fin.ext
    match a with
    | ⟨0, _⟩ => rfl
    | ⟨1, _⟩ => rfl
  show linear (n := 5000) (iblk2 V c 0 t) (iblk2 V c 1 t) (iblk2 V c 2 t) (ix2 p q)
    = linear (n := 100000) (V c main_v45) (V c main_arg9) (V c main_v46) (((cfg2.win 3).blk t).view.emb (ix2 p q))
  rw [he]
  exact linear_of_rows (V c main_v45) (V c main_arg9) (V c main_v46)
    (iblk2 V c 0 t) (iblk2 V c 1 t) (iblk2 V c 2 t) p q _ _
    (fun k => read2_0 V c t (ix2 p k) (ix2 _ k) rfl rfl)
    (fun k => read2_1 V c t (ix2 k q) (ix2 k _) rfl (by show win2_3.index t (1 : Fin 2) * 64 + 1 * q.val = q.val; omega))
    (read2_2 V c t (ix2 0 q) (ix2 0 _) rfl (by show win2_3.index t (1 : Fin 2) * 64 + 1 * q.val = q.val; omega))

/-- An index of the output array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v47).slice (win2_3.rect t)).set ↔ _
  rw [View.set_slice_whole, Rect.mem_set_unit]
  exact Iff.rfl

/-- The 20 row blocks tile the array: row `r` lies in the block of point `r / 5000`, and every point writes back. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hlt : (i 0).val / 5000 < cfg2.N := by
    show (i 0).val / 5000 < 20
    omega
  obtain ⟨-, -, -, -, -, -, e6, e7⟩ := idx2 ⟨(i 0).val / 5000, hlt⟩
  have e6' : win2_3.index ⟨(i 0).val / 5000, hlt⟩ (0 : Fin 2) = (i 0).val / 5000 := e6
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    omega
  | ⟨1, _⟩ =>
    show win2_3.index ⟨(i 0).val / 5000, hlt⟩ (1 : Fin 2) * 64 ≤ (i 1).val ∧ (i 1).val < win2_3.index ⟨(i 0).val / 5000, hlt⟩ (1 : Fin 2) * 64 + 64
    omega

/-- Region 2 leaves `x·w + b` of the arrays it finds. -/
theorem final2 (c : Dev nD) :
    (dat2 V c).arrAt 3 cfg2.N = linear (n := 100000) (V c main_v45) (V c main_arg9) (V c main_v46) :=
  (dat2 V c).arrAt_eq_of_cover 3 (linear (n := 100000) (V c main_v45) (V c main_arg9) (V c main_v46))
    (fun t _ => flushed2_eq V c t) cover2

end Cert.Sage.Blocks

end
-- ==== Proof.AggDefs.lean ====
/- The neighbour mean as the kernel's program spells it, kept whole.

   For node features `x`, edge sources `s` and edge targets `d`: `msg x s d` adds, into row `p`, the row `x[s e]`
   of every edge `e` with `d e = p` (a gather of the source rows, a negative source index wrapped once, then a
   scatter-add from zero); `deg d` counts those edges (a scatter-add of ones).  The kernel's program multiplies each
   row of `msg` by `1 / max (deg, 1)`.  Nothing here opens the gather or the scatter: both programs apply the same
   two operations to the same arrays, and only the row scaling differs. -/
import proofs.«179294_j55009941128032_1_alg».proof.Proof.Gen.KernelIdeal

noncomputable section

namespace Cert.Sage

open Idealize.ShloMosaic Cert.KernelIdeal Cert.KernelIdeal.Gen

variable {F : FTy → Type} [FloatOps F]

/-- The edge sources as the gather takes them: a negative index has the node count added, then a unit axis. -/
def srcCol (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Row `p`: the sum of the rows `x[s e]` over the edges `e` with target `p`. -/
def msg (x : (⟨S100000x64, .f32⟩ : BufTy).Contents (Elt F)) (s d : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 x (srcCol s))

/-- Entry `p`: the number of edges with target `p`. -/
def deg (d : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- The kernel's neighbour mean: each row of `msg` times `1 / max (deg, 1)`. -/
def aggK (x : (⟨S100000x64, .f32⟩ : BufTy).Contents (Elt F)) (s d : (⟨S1600000, .i32⟩ : BufTy).Contents (Elt F)) :
    (⟨S100000x64, .f32⟩ : BufTy).Contents (Elt F) :=
  mulf (msg x s d)
    (broadcastInDim S100000x64 ![0, 1] bcast_S100000x1_S100000x64_0_1
      (broadcastInDim S100000x1 ![0] bcast_S100000_S100000x1_0
        (Host.divf (broadcastInDim S100000 ![] bcast_S_S100000 (constant S_ .f32 0x3F800000#32))
          (maximumf (deg d) (broadcastInDim S100000 ![] bcast_S_S100000 (constant S_ .f32 0x3F800000#32))))))

/-- The bias as the kernel's program passes it: the 64 entries as one row. -/
def biasRow (b : (⟨S64, .f32⟩ : BufTy).Contents (Elt F)) : (⟨S1x64, .f32⟩ : BufTy).Contents (Elt F) :=
  shapeCast S1x64 b shapeCasts_S64_S1x64

end Cert.Sage

end
-- ==== Proof.HostK.lean ====
/- What each region of the kernel's program finds in the arrays it reads.

   Before the first combine step the program has computed the neighbour mean of the input features and laid the
   first bias out as a row; before the second, the same of the first step's result with the second bias; before the
   last step only the last bias is laid out.  Weights and edge lists are never written, so every region finds them
   as launched, and a region's result stays in its array until a later region reads it. -/
import proofs.«179294_j55009941128032_1_alg».proof.Proof.KernelIdealFrame
import proofs.«179294_j55009941128032_1_alg».proof.Proof.AggDefs
import Idealize.ShloMosaic.Lib.StableHlo.Run

set_option maxRecDepth 16384

noncomputable section

namespace Cert.Sage.HostK

open Idealize.ShloMosaic Idealize.ShloMosaic.TcCoe Idealize.SL.Sem Idealize.ShloMosaic.StableHlo
open Cert.KernelIdeal Cert.KernelIdeal.Gen Cert.KernelIdeal.GenP Cert.Sage

variable {F : FTy → Type} [FloatOps F]
variable (m : (ℓ : Loc nD τ sig) → Buf (Elt F) ℓ) (ρ : Dev nD → PrngReg)

/-! ## What a stretch of host operations leaves alone

A stretch changes only the result buffers of its own operations.  For a buffer that is the result of none of
them, the contents after the stretch are the contents before it, whatever those were: each operation's result
buffer is told apart from the buffer as a reference. -/

section Keep

/-- The buffer is no operation's result: one inequality of references per operation of the stretch. -/
local macro "no_result_here" : tactic => `(tactic| (
  refine StableHlo.after_of_forall_not_mem _ _ (List.forall_iff_forall_mem.mp ?_)
  simp only [hostOps0, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

variable (V : Valuation τ sig (Elt F))

/-! The first stretch writes none of the arguments. -/
theorem keep0_arg0 : StableHlo.after hostOps0 V (Proc.devRef .tc main_arg0) = V (Proc.devRef .tc main_arg0) := by no_result_here
theorem keep0_arg1 : StableHlo.after hostOps0 V (Proc.devRef .tc main_arg1) = V (Proc.devRef .tc main_arg1) := by no_result_here
theorem keep0_arg2 : StableHlo.after hostOps0 V (Proc.devRef .tc main_arg2) = V (Proc.devRef .tc main_arg2) := by no_result_here
theorem keep0_arg3 : StableHlo.after hostOps0 V (Proc.devRef .tc main_arg3) = V (Proc.devRef .tc main_arg3) := by no_result_here
theorem keep0_arg4 : StableHlo.after hostOps0 V (Proc.devRef .tc main_arg4) = V (Proc.devRef .tc main_arg4) := by no_result_here
theorem keep0_arg6 : StableHlo.after hostOps0 V (Proc.devRef .tc main_arg6) = V (Proc.devRef .tc main_arg6) := by no_result_here
theorem keep0_arg7 : StableHlo.after hostOps0 V (Proc.devRef .tc main_arg7) = V (Proc.devRef .tc main_arg7) := by no_result_here
theorem keep0_arg8 : StableHlo.after hostOps0 V (Proc.devRef .tc main_arg8) = V (Proc.devRef .tc main_arg8) := by no_result_here
theorem keep0_arg9 : StableHlo.after hostOps0 V (Proc.devRef .tc main_arg9) = V (Proc.devRef .tc main_arg9) := by no_result_here
theorem keep0_arg10 : StableHlo.after hostOps0 V (Proc.devRef .tc main_arg10) = V (Proc.devRef .tc main_arg10) := by no_result_here

/-! The second stretch writes neither the first step's result nor a later argument. -/
theorem keep1_v22 : StableHlo.after hostOps1 V (Proc.devRef .tc main_v22) = V (Proc.devRef .tc main_v22) := by no_result_here
theorem keep1_arg6 : StableHlo.after hostOps1 V (Proc.devRef .tc main_arg6) = V (Proc.devRef .tc main_arg6) := by no_result_here
theorem keep1_arg7 : StableHlo.after hostOps1 V (Proc.devRef .tc main_arg7) = V (Proc.devRef .tc main_arg7) := by no_result_here
theorem keep1_arg9 : StableHlo.after hostOps1 V (Proc.devRef .tc main_arg9) = V (Proc.devRef .tc main_arg9) := by no_result_here
theorem keep1_arg10 : StableHlo.after hostOps1 V (Proc.devRef .tc main_arg10) = V (Proc.devRef .tc main_arg10) := by no_result_here

/-! The last stretch writes neither the second step's result nor the last weight. -/
theorem keep2_v45 : StableHlo.after hostOps2 V (Proc.devRef .tc main_v45) = V (Proc.devRef .tc main_v45) := by no_result_here
theorem keep2_arg9 : StableHlo.after hostOps2 V (Proc.devRef .tc main_arg9) = V (Proc.devRef .tc main_arg9) := by no_result_here

end Keep

/-! ## The arguments, read back to the launch

An argument that no region before the point has among its arrays, and no stretch writes, holds the launch
memory: one step back per region boundary and per stretch. -/

theorem W2_arg1 (c : Dev nD) : W2 m ρ c (Proc.devRef .tc main_arg1) = m ((c : Thread nD τ).loc main_arg1) :=
  ((W2_of_ne m ρ c main_arg1 (by decide)).trans (keep0_arg1 (W0 m ρ c))).trans rfl
theorem W2_arg2 (c : Dev nD) : W2 m ρ c (Proc.devRef .tc main_arg2) = m ((c : Thread nD τ).loc main_arg2) :=
  ((W2_of_ne m ρ c main_arg2 (by decide)).trans (keep0_arg2 (W0 m ρ c))).trans rfl
theorem W2_arg6 (c : Dev nD) : W2 m ρ c (Proc.devRef .tc main_arg6) = m ((c : Thread nD τ).loc main_arg6) :=
  ((W2_of_ne m ρ c main_arg6 (by decide)).trans (keep0_arg6 (W0 m ρ c))).trans rfl
theorem W2_arg7 (c : Dev nD) : W2 m ρ c (Proc.devRef .tc main_arg7) = m ((c : Thread nD τ).loc main_arg7) :=
  ((W2_of_ne m ρ c main_arg7 (by decide)).trans (keep0_arg7 (W0 m ρ c))).trans rfl
theorem W2_arg8 (c : Dev nD) : W2 m ρ c (Proc.devRef .tc main_arg8) = m ((c : Thread nD τ).loc main_arg8) :=
  ((W2_of_ne m ρ c main_arg8 (by decide)).trans (keep0_arg8 (W0 m ρ c))).trans rfl
theorem W2_arg9 (c : Dev nD) : W2 m ρ c (Proc.devRef .tc main_arg9) = m ((c : Thread nD τ).loc main_arg9) :=
  ((W2_of_ne m ρ c main_arg9 (by decide)).trans (keep0_arg9 (W0 m ρ c))).trans rfl
theorem W2_arg10 (c : Dev nD) : W2 m ρ c (Proc.devRef .tc main_arg10) = m ((c : Thread nD τ).loc main_arg10) :=
  ((W2_of_ne m ρ c main_arg10 (by decide)).trans (keep0_arg10 (W0 m ρ c))).trans rfl

theorem W4_arg9 (c : Dev nD) : W4 m ρ c (Proc.devRef .tc main_arg9) = m ((c : Thread nD τ).loc main_arg9) :=
  ((W4_of_ne m ρ c main_arg9 (by decide)).trans (keep1_arg9 (W2 m ρ c))).trans (W2_arg9 m ρ c)
theorem W4_arg10 (c : Dev nD) : W4 m ρ c (Proc.devRef .tc main_arg10) = m ((c : Thread nD τ).loc main_arg10) :=
  ((W4_of_ne m ρ c main_arg10 (by decide)).trans (keep1_arg10 (W2 m ρ c))).trans (W2_arg10 m ρ c)

/-- At region 0's exit its output array holds what the pipeline leaves there. -/
theorem W2_v22 (c : Dev nD) : W2 m ρ c (Proc.devRef .tc main_v22) = (dat0 (V1 m ρ) c).arrAt 5 cfg0.N :=
  W2_arr m ρ c 5

/-! ## Region 0 -/

theorem V1_arg0 (c : Dev nD) : V1 m ρ c main_arg0 = m ((c : Thread nD τ).loc main_arg0) :=
  (keep0_arg0 (W0 m ρ c)).trans rfl
theorem V1_arg3 (c : Dev nD) : V1 m ρ c main_arg3 = m ((c : Thread nD τ).loc main_arg3) :=
  (keep0_arg3 (W0 m ρ c)).trans rfl
theorem V1_arg4 (c : Dev nD) : V1 m ρ c main_arg4 = m ((c : Thread nD τ).loc main_arg4) :=
  (keep0_arg4 (W0 m ρ c)).trans rfl
/-- Region 0 finds in its second operand the neighbour mean of the launched features. -/
theorem V1_v20 (c : Dev nD) :
    V1 m ρ c main_v20 = aggK (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  rfl
theorem V1_v21 (c : Dev nD) : V1 m ρ c main_v21 = biasRow (m ((c : Thread nD τ).loc main_arg5)) := by
  show StableHlo.after hostOps0 (W0 m ρ c) (Proc.devRef .tc main_v21) = _
  after_results_simp
  rfl

/-! ## Region 1 -/

/-- Region 1 finds region 0's result where region 0 left it. -/
theorem V3_v22 (c : Dev nD) : V3 m ρ c main_v22 = (dat0 (V1 m ρ) c).arrAt 5 cfg0.N :=
  (keep1_v22 (W2 m ρ c)).trans (W2_v22 m ρ c)
/-- and in its second operand the neighbour mean of that result. -/
theorem V3_v43 (c : Dev nD) :
    V3 m ρ c main_v43 = aggK ((dat0 (V1 m ρ) c).arrAt 5 cfg0.N) (m ((c : Thread nD τ).loc main_arg1)) (m ((c : Thread nD τ).loc main_arg2)) := by
  show StableHlo.after hostOps1 (W2 m ρ c) (Proc.devRef .tc main_v43) = _
  after_results_simp
  rw [W2_v22 m ρ c, W2_arg1 m ρ c, W2_arg2 m ρ c]
  rfl
theorem V3_arg6 (c : Dev nD) : V3 m ρ c main_arg6 = m ((c : Thread nD τ).loc main_arg6) :=
  (keep1_arg6 (W2 m ρ c)).trans (W2_arg6 m ρ c)
theorem V3_arg7 (c : Dev nD) : V3 m ρ c main_arg7 = m ((c : Thread nD τ).loc main_arg7) :=
  (keep1_arg7 (W2 m ρ c)).trans (W2_arg7 m ρ c)
theorem V3_v44 (c : Dev nD) : V3 m ρ c main_v44 = biasRow (m ((c : Thread nD τ).loc main_arg8)) := by
  show StableHlo.after hostOps1 (W2 m ρ c) (Proc.devRef .tc main_v44) = _
  after_results_simp
  rw [W2_arg8 m ρ c]
  rfl

/-! ## Region 2 -/

/-- Region 2 finds region 1's result where region 1 left it. -/
theorem V5_v45 (c : Dev nD) : V5 m ρ c main_v45 = (dat1 (V3 m ρ) c).arrAt 5 cfg1.N :=
  (keep2_v45 (W4 m ρ c)).trans (W4_arr m ρ c 5)
theorem V5_arg9 (c : Dev nD) : V5 m ρ c main_arg9 = m ((c : Thread nD τ).loc main_arg9) :=
  (keep2_arg9 (W4 m ρ c)).trans (W4_arg9 m ρ c)
theorem V5_v46 (c : Dev nD) : V5 m ρ c main_v46 = biasRow (m ((c : Thread nD τ).loc main_arg10)) := by
  show StableHlo.after hostOps2 (W4 m ρ c) (Proc.devRef .tc main_v46) = _
  after_results_simp
  rw [W4_arg10 m ρ c]
  rfl

end Cert.Sage.HostK

end
-- ==== Proof.Bridge.lean ====
/- The reference, layer by layer, against the formulas of Spec.lean.

   The reference applies one layer — neighbour mean, two matrix products, bias — twice, then one matrix product and a
   bias.  Its program divides each row of the summed messages by `max (deg, 1)` where the kernel's program multiplies
   by `1 / max (deg, 1)`: as extended reals the two agree because `max (deg, 1)` is at least one, hence not zero, and
   a quotient by a divisor that is not zero is the product with its inverse.  The matrix products are the same sums
   over the inner axis, and a bias broadcast down the rows reads the bias entry of the column. -/
import proofs.«179294_j55009941128032_1_alg».proof.Proof.Gen.ReferenceIdeal.Read
import proofs.«179294_j55009941128032_1_alg».proof.Proof.AggDefs
import proofs.«179294_j55009941128032_1_alg».proof.Proof.Spec
import Idealize.ShloMosaic.Lib.IdealHost
import Idealize.ShloMosaic.Lib.ValueLayout
import Idealize.ShloMosaic.Lib.Pipeline.Value

set_option maxRecDepth 16384

noncomputable section

open scoped BigOperators

namespace Cert.Sage.Bridge

open Idealize.ShloMosaic Idealize.ShloMosaic.ValueIdx Cert.ReferenceIdeal Cert.ReferenceIdeal.Gen Cert.ReferenceIdeal.Read Cert.Sage

section
variable {F : FTy → Type} [FloatOps F]

/-- The reference's last step: one matrix product and the bias broadcast down the rows. -/
def refLast (h : (⟨S100000x64, .f32⟩ : BufTy).Contents (Elt F)) (w : (⟨S64x64, .f32⟩ : BufTy).Contents (Elt F))
    (b : (⟨S64, .f32⟩ : BufTy).Contents (Elt F)) : (⟨S100000x64, .f32⟩ : BufTy).Contents (Elt F) :=
  addf (Host.dotGeneral dot_S100000x64_S64x64_S100000x64_1_0_0_1_n_n none h w)
    (broadcastInDim S100000x64 ![0, 1] bcast_S1x64_S100000x64_0_1 (broadcastInDim S1x64 ![1] bcast_S64_S1x64_1 b))

/-- The reference's whole result is its layer applied twice, then its last step. -/
theorem ref_comp (x0 : (⟨S100000x64, .f32⟩ : BufTy).Contents (Elt F)) (x1 x2 : (⟨S1600000, .i32⟩ : BufTy).Contents (Elt F))
    (x3 x4 : (⟨S64x64, .f32⟩ : BufTy).Contents (Elt F)) (x5 : (⟨S64, .f32⟩ : BufTy).Contents (Elt F))
    (x6 x7 : (⟨S64x64, .f32⟩ : BufTy).Contents (Elt F)) (x8 : (⟨S64, .f32⟩ : BufTy).Contents (Elt F))
    (x9 : (⟨S64x64, .f32⟩ : BufTy).Contents (Elt F)) (x10 : (⟨S64, .f32⟩ : BufTy).Contents (Elt F)) :
    val_main_v53 (F := F) x0 x1 x2 x3 x4 x5 x6 x7 x8 x9 x10
      = refLast (val_main_v24 (F := F) (val_main_v24 (F := F) x0 x1 x2 x3 x4 x5) x1 x2 x6 x7 x8) x9 x10 := rfl

end

section
variable {F : FTy → Type} [FloatOps F]

/-- The reference's summed messages are the kernel's: the same gather and scatter-add on the same arrays. -/
theorem v9_eq_msg (x : (⟨S100000x64, .f32⟩ : BufTy).Contents (Elt F)) (s d : (⟨S1600000, .i32⟩ : BufTy).Contents (Elt F)) :
    val_main_v9 (F := F) x s d = msg x s d := by
  unfold val_main_v9 val_main_v8 val_main_v7 val_main_v6 val_main_v5 val_main_v4 val_main_v3 val_main_v2 val_main_v1
    val_main_v0 val_main_c val_main_c_0 val_main_cst msg srcCol
  rfl

/-- The reference's in-degree is the kernel's: the same scatter-add of ones. -/
theorem v13_eq_deg (d : (⟨S1600000, .i32⟩ : BufTy).Contents (Elt F)) :
    val_main_v13 (F := F) d = deg d := by
  unfold val_main_v13 val_main_v12 val_main_v11 val_main_v10 val_main_cst_1 val_main_cst_2 deg
  rfl

end

/-- A column `[n]` spread to `[n, 1]` and then along the rows to `[n, 64]` reads, at `(p, k)`, the column's entry `p`. -/
theorem rowSpread_apply {α : Type} (h1 : S100000.BroadcastsInDim S100000x1 ![0])
    (h2 : S100000x1.BroadcastsInDim S100000x64 ![0, 1]) (z : S100000.Idx → α) (p : Fin 100000) (k : Fin 64) :
    broadcastInDim S100000x64 ![0, 1] h2 (broadcastInDim S100000x1 ![0] h1 z) (ix2 p k) = z (ix1 p) := by
  rw [broadcastInDim_apply _ h2 _ (ix2 p k) (ix2 p (0 : Fin 1)) (fun a => match a with
      | ⟨0, _⟩ => by show p.val = if (100000 : Nat) = 1 then 0 else p.val; rw [if_neg (by decide)]
      | ⟨1, _⟩ => by show 0 = if (1 : Nat) = 1 then 0 else k.val; rw [if_pos rfl]),
    broadcastInDim_apply _ h1 _ (ix2 p (0 : Fin 1)) (ix1 p) (fun a => match a with
      | ⟨0, _⟩ => by show p.val = if (100000 : Nat) = 1 then 0 else p.val; rw [if_neg (by decide)])]

/-- The bias as one row reads, at `(0, q)`, the bias entry `q`. -/
theorem biasRow_apply (b : (⟨S64, .f32⟩ : BufTy).Contents (Elt Ideal)) (q : Fin 64) :
    biasRow (F := Ideal) b (ix2 (0 : Fin 1) q) = b (ix1 q) := by
  unfold biasRow
  exact shapeCast_a_1a_apply b _ (0 : Fin 1) q

/-- The kernel's neighbour mean is the reference's at every entry: `m * (1 / max (g, 1)) = m / max (g, 1)` because
    `max (g, 1)` is at least one, hence not zero. -/
theorem aggK_eq_v18 (x : (⟨S100000x64, .f32⟩ : BufTy).Contents (Elt Ideal)) (s d : (⟨S1600000, .i32⟩ : BufTy).Contents (Elt Ideal))
    (p : Fin 100000) (k : Fin 64) :
    aggK (F := Ideal) x s d (ix2 p k) = val_main_v18 (F := Ideal) x s d (ix2 p k) := by
  have hidx : idx_main_v16 (idx_main_v17 (ix2 p k)) = ix1 p := funext fun a => Fin.ext (by match a with | ⟨0, _⟩ => rfl)
  unfold aggK
  rw [val_main_v18_apply, val_main_v17_apply, val_main_v16_apply, val_main_v15_apply, val_main_v14_apply,
    val_main_cst_3_apply, v9_eq_msg, v13_eq_deg, hidx]
  rw [mulf_apply, rowSpread_apply, hostDivf_apply, maximumf_apply, broadcastInDim_scalar_apply, constant_apply]
  rw [Ideal.hostDivf_def, Ideal.maximumf_def, Ideal.ofBits_def, Ideal.ofBits_one_f32]
  exact Ideal.mul_one_div (lt_of_lt_of_le zero_lt_one (le_max_right _ _)).ne'

/-- One layer: the formula `x·w + y·v + b` at the kernel's neighbour mean is the reference's layer. -/
theorem layer_eq (x : (⟨S100000x64, .f32⟩ : BufTy).Contents (Elt Ideal)) (s d : (⟨S1600000, .i32⟩ : BufTy).Contents (Elt Ideal))
    (w v : (⟨S64x64, .f32⟩ : BufTy).Contents (Elt Ideal)) (b : (⟨S64, .f32⟩ : BufTy).Contents (Elt Ideal)) :
    combine (n := 100000) x (aggK (F := Ideal) x s d) w v (biasRow (F := Ideal) b) = val_main_v24 (F := Ideal) x s d w v b := by
  funext i
  obtain ⟨p, q, rfl⟩ : ∃ (p : Fin 100000) (q : Fin 64), i = ix2 p q := ⟨i 0, i 1, eq_ix2 i⟩
  have hl19 : ∀ k : Fin 64, lidx_main_v19 (ix2 p q) k = ix2 p k := fun k =>
    funext fun a => Fin.ext (by match a with | ⟨0, _⟩ => rfl | ⟨1, _⟩ => rfl)
  have hr19 : ∀ k : Fin 64, ridx_main_v19 (ix2 p q) k = ix2 k q := fun k =>
    funext fun a => Fin.ext (by match a with | ⟨0, _⟩ => rfl | ⟨1, _⟩ => rfl)
  have hl20 : ∀ k : Fin 64, lidx_main_v20 (ix2 p q) k = ix2 p k := fun k =>
    funext fun a => Fin.ext (by match a with | ⟨0, _⟩ => rfl | ⟨1, _⟩ => rfl)
  have hr20 : ∀ k : Fin 64, ridx_main_v20 (ix2 p q) k = ix2 k q := fun k =>
    funext fun a => Fin.ext (by match a with | ⟨0, _⟩ => rfl | ⟨1, _⟩ => rfl)
  have hb : idx_main_v22 (idx_main_v23 (ix2 p q)) = ix1 q :=
    funext fun a => Fin.ext (by match a with | ⟨0, _⟩ => rfl)
  rw [combine_ix2]
  unfold combineAt
  rw [val_main_v24_apply, val_main_v21_apply, val_main_v19_apply, val_main_v20_apply, val_main_v23_apply,
    val_main_v22_apply, hb, biasRow_apply]
  simp only [hl19, hr19, hl20, hr20, Ideal.addf_def, aggK_eq_v18]

/-- The last step: the formula `x·w + b` is the reference's last step. -/
theorem last_eq (h : (⟨S100000x64, .f32⟩ : BufTy).Contents (Elt Ideal)) (w : (⟨S64x64, .f32⟩ : BufTy).Contents (Elt Ideal))
    (b : (⟨S64, .f32⟩ : BufTy).Contents (Elt Ideal)) :
    linear (n := 100000) h w (biasRow (F := Ideal) b) = refLast (F := Ideal) h w b := by
  funext i
  obtain ⟨p, q, rfl⟩ : ∃ (p : Fin 100000) (q : Fin 64), i = ix2 p q := ⟨i 0, i 1, eq_ix2 i⟩
  have hl19 : ∀ k : Fin 64, lidx_main_v19 (ix2 p q) k = ix2 p k := fun k =>
    funext fun a => Fin.ext (by match a with | ⟨0, _⟩ => rfl | ⟨1, _⟩ => rfl)
  have hr19 : ∀ k : Fin 64, ridx_main_v19 (ix2 p q) k = ix2 k q := fun k =>
    funext fun a => Fin.ext (by match a with | ⟨0, _⟩ => rfl | ⟨1, _⟩ => rfl)
  have hb : idx_main_v22 (idx_main_v23 (ix2 p q)) = ix1 q :=
    funext fun a => Fin.ext (by match a with | ⟨0, _⟩ => rfl)
  rw [linear_ix2]
  unfold linearAt
  change _ = val_main_v19 (F := Ideal) h w (ix2 p q) + val_main_v23 (F := Ideal) b (ix2 p q)
  rw [val_main_v19_apply, val_main_v23_apply, val_main_v22_apply, hb, biasRow_apply]
  simp only [hl19, hr19]

end Cert.Sage.Bridge

end
-- ==== Proof.KernelValue.lean ====
/- The kernel's result array as the reference's function of the launched arrays.

   Region by region: the first combine step leaves the reference's first layer of the launched features; the second
   leaves the reference's layer of that; the last step leaves the reference's last step of that.  Each step is the
   region's block formula (over the arrays the region finds), those arrays read back to the launch, and the layer's
   agreement with the reference. -/
import proofs.«179294_j55009941128032_1_alg».proof.Proof.KernelIdealRun
import proofs.«179294_j55009941128032_1_alg».proof.Proof.Blocks
import proofs.«179294_j55009941128032_1_alg».proof.Proof.HostK
import proofs.«179294_j55009941128032_1_alg».proof.Proof.Bridge

set_option maxRecDepth 16384

noncomputable section

namespace Cert.Sage.KernelValue

open Idealize.ShloMosaic Idealize.ShloMosaic.TcCoe Idealize.SL.Sem
open Cert.KernelIdeal Cert.KernelIdeal.Gen Cert.KernelIdeal.GenP Cert.Sage
open Cert.ReferenceIdeal.Read (val_main_v24 val_main_v53)

variable (m : (ℓ : Loc nD τ sig) → Buf (Elt Ideal) ℓ) (ρ : Dev nD → PrngReg)

/-- Region 0 leaves the reference's first layer of the launched arrays. -/
theorem out0 (c : Dev nD) :
    (dat0 (V1 m ρ) c).arrAt 5 cfg0.N
      = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Blocks.final0 (V1 m ρ) c, HostK.V1_arg0, HostK.V1_v20, HostK.V1_arg3, HostK.V1_arg4, HostK.V1_v21]
  exact Bridge.layer_eq _ _ _ _ _ _

/-- Region 1 leaves the reference's layer of region 0's result. -/
theorem out1 (c : Dev nD) :
    (dat1 (V3 m ρ) c).arrAt 5 cfg1.N
      = val_main_v24 (F := Ideal)
          (val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
          (m ((c : Thread nD τ).loc main_arg1)) (m ((c : Thread nD τ).loc main_arg2)) (m ((c : Thread nD τ).loc main_arg6)) (m ((c : Thread nD τ).loc main_arg7)) (m ((c : Thread nD τ).loc main_arg8)) := by
  rw [Blocks.final1 (V3 m ρ) c, HostK.V3_v22, HostK.V3_v43, HostK.V3_arg6, HostK.V3_arg7, HostK.V3_v44, out0]
  exact Bridge.layer_eq _ _ _ _ _ _

/-- The result array at the end of the run is the reference's function of the launched arrays. -/
theorem result (c : Dev nD) :
    W6 m ρ c (Proc.devRef .tc main_v47)
      = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Bridge.ref_comp]
  refine (W6_arr m ρ c 3).trans ?_
  rw [Blocks.final2 (V5 m ρ) c, HostK.V5_v45, HostK.V5_arg9, HostK.V5_v46, out1]
  exact Bridge.last_eq _ _ _

end Cert.Sage.KernelValue

end
-- ==== Proof.lean ====
/- A two-layer GraphSAGE network: the kernel's program against the jnp reference, over the extended reals.

   Both programs compute, twice, `h ↦ h·W_self + mean(h)·W_neigh + b` where `mean(h)` is the mean of `h` over each
   node's in-neighbours (a gather of the edge sources' rows, a scatter-add into the edge targets, a division by the
   in-degree floored at one), and then `h ↦ h·W_fc + b_fc`.  The kernel's program runs the three affine steps as
   row-blocked matrix products on the accelerator and scales the summed messages by `1 / max (deg, 1)`; the reference
   divides them by `max (deg, 1)`.  As extended reals a divisor that is at least one is not zero, so the quotient is the
   product with the inverse and the two means agree entry by entry; the matrix products are the same sums over the
   inner axis whatever the blocking, and narrowing an operand to bf16 is the identity.  The gather and the scatter-add
   are the same operations on the same arrays in both programs and are never opened.  No finiteness of the inputs is
   used for the value; the frames hold for every memory.

   Spec.lean states the affine steps entry by entry; Payload.lean reads each kernel body's stored value as that
   formula of its loaded blocks; Blocks.lean goes from the 20 row blocks to the whole output array of each region;
   HostK.lean says what each region finds in the arrays it reads; AggDefs.lean names the kernel's neighbour mean;
   Bridge.lean joins the formulas to the reference's layer and last step; KernelValue.lean composes the three
   regions; this file assembles the five claims. -/
import proofs.«179294_j55009941128032_1_alg».proof.Defs
import proofs.«179294_j55009941128032_1_alg».proof.Proof.Gen.Kernel
import proofs.«179294_j55009941128032_1_alg».proof.Proof.KernelFrame
import proofs.«179294_j55009941128032_1_alg».proof.Proof.Gen.KernelIdeal
import proofs.«179294_j55009941128032_1_alg».proof.Proof.KernelIdealFrame
import proofs.«179294_j55009941128032_1_alg».proof.Proof.KernelIdealRun
import proofs.«179294_j55009941128032_1_alg».proof.Proof.Gen.ReferenceIdeal
import proofs.«179294_j55009941128032_1_alg».proof.Proof.Gen.ReferenceIdeal.Run
import proofs.«179294_j55009941128032_1_alg».proof.Proof.Gen.ReferenceIdeal.Read
import proofs.«179294_j55009941128032_1_alg».proof.Proof.Gen.Pre_finite_inputs
import proofs.«179294_j55009941128032_1_alg».proof.Proof.KernelValue
import Idealize.ShloMosaic.Adequacy
import Idealize.ShloMosaic.Init

set_option maxRecDepth 16384

noncomputable section

namespace Cert.Proof

open Idealize.ShloMosaic Idealize.SL.Sem

/-- The kernel's program as printed runs and leaves its arguments as launched. -/
theorem frame_Kernel : Cert.frame_Kernel (hKernel := Cert.Kernel.Gen.facts) (hPre_finite_inputs := Cert.Pre_finite_inputs.Gen.facts) :=
  fun m ρ _ => Cert.Kernel.GenP.frame m ρ

/-- So does its reading over the extended reals. -/
theorem frame_KernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference is host operations only: its run, with the result forgotten. -/
theorem frame_ReferenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the reference's function of the launched arrays in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree =>
    ⟨fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
      (θ_run Cert.KernelIdeal.defs _ _).mono
        (fun r h c => ⟨(h c).1.trans (Cert.Sage.KernelValue.result m ρ c), (h c).2⟩)
        (Cert.KernelIdeal.GenP.run m ρ),
      (θ_run Cert.ReferenceIdeal.defs _ _).mono
        (fun r h c => ⟨by
            obtain ⟨e0, e1, e2, e3, e4, e5, e6, e7, e8, e9, e10⟩ := hagree c
            rw [(h c).1, Cert.ReferenceIdeal.Read.val_main_v53_eq, e0, e1, e2, e3, e4, e5, e6, e7, e8, e9, e10],
          (h c).2⟩)
        (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
